-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S1024x64 : Shape := ⟨2, ![1024, 64]⟩
abbrev S_ : Shape := ⟨0, ![]⟩
abbrev S65536x1024 : Shape := ⟨2, ![65536, 1024]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  reducesTo_S_S_d : S_.ReducesTo [] S_
  bcast_S_S65536x1024 : S_.BroadcastsInDim S65536x1024 (![] : Fin 0 → Fin S65536x1024.rank)
  reducesTo_S65536x1024_S_d0_1 : S65536x1024.ReducesTo [0, 1] S_

variable [Facts]

def fn_part1 {F : FTy → Type} [FloatOps F] (main_v12 : IVec S_ 1) (main_v15 : IVec S65536x1024 1) (main_c_5 : IVec S_ 1) : IVec S_ 1 :=
  let main_v16 : IVec S_ 1 := (fun x v => Host.reduce IntOp.andi x v reducesTo_S65536x1024_S_d0_1 h_S_) main_v15 main_c_5
  let main_v17 : IVec S_ 1 := andi main_v12 main_v16
  main_v17

def fn {F : FTy → Type} [FloatOps F] (main_arg0 : FVec F S32x2048x64 .f32) (main_arg1 : FVec F S1024x64 .f32) (main_arg2 : FVec F S_ .f32) (main_arg3 : FVec F S65536x1024 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S65536x1024 .f32 := Host.absf main_arg3
  let main_cst_4 : FVec F S_ .f32 := constant S_ .f32 0x7F800000#32
  let main_v14 : FVec F S65536x1024 .f32 := broadcastInDim S65536x1024 ![] bcast_S_S65536x1024 main_cst_4
  let main_v15 : IVec S65536x1024 1 := cmpf .olt main_v13 main_v14
  let main_c_5 : IVec S_ 1 := constantI S_ 1 1#1
  fn_part1 (F := F) main_v12 main_v15 main_c_5
-- ==== Kernel.lean ====
abbrev S32x2048x64 : Shape := ⟨3, ![32, 2048, 64]⟩
abbrev S1024x64 : Shape := ⟨2, ![1024, 64]⟩
abbrev S_ : Shape := ⟨0, ![]⟩
abbrev S65536x1024 : Shape := ⟨2, ![65536, 1024]⟩
abbrev S65536x64 : Shape := ⟨2, ![65536, 64]⟩
abbrev S64x1024 : Shape := ⟨2, ![64, 1024]⟩
abbrev S1x1 : Shape := ⟨2, ![1, 1]⟩
abbrev S512x64 : Shape := ⟨2, ![512, 64]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S32x2048x1024 : Shape := ⟨3, ![32, 2048, 1024]⟩

abbrev nBuf : Space → Nat
  | .hbm => 16
  | .vmem => 11
  | .smem => 0
  | _ => 0

abbrev bufTy : (tb : Table) → Fin (tcTables nBuf tb) → BufTy
  | .hbm, ⟨0, _⟩ => ⟨S32x2048x64, .f32⟩
  | .hbm, ⟨1, _⟩ => ⟨S1024x64, .f32⟩
  | .hbm, ⟨2, _⟩ => ⟨S_, .f32⟩
  | .hbm, ⟨3, _⟩ => ⟨S65536x1024, .f32⟩
  | .hbm, ⟨4, _⟩ => ⟨S65536x64, .f32⟩
  | .hbm, ⟨5, _⟩ => ⟨S64x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S65536x1024, .f32⟩
  | .hbm, ⟨13, _⟩ => ⟨S65536x64, .f32⟩
  | .hbm, ⟨14, _⟩ => ⟨S32x2048x64, .f32⟩
  | .hbm, ⟨15, _⟩ => ⟨S32x2048x1024, .f32⟩
  | .local _ .vmem, ⟨0, _⟩ => ⟨S512x64, .f32⟩
  | .local _ .vmem, ⟨1, _⟩ => ⟨S512x64, .f32⟩
  | .local _ .vmem, ⟨2, _⟩ => ⟨S1024x64, .f32⟩
  | .local _ .vmem, ⟨3, _⟩ => ⟨S64x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S512x1024, .f32⟩
  | .local _ .vmem, ⟨8, _⟩ => ⟨S512x1024, .f32⟩
  | .local _ .vmem, ⟨9, _⟩ => ⟨S512x64, .f32⟩
  | .local _ .vmem, ⟨10, _⟩ => ⟨S512x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x2048x64_S65536x64 : S32x2048x64.ShapeCasts S65536x64
  transposes_S1024x64_S64x1024_1_0 : S1024x64.Transposes [1, 0] S64x1024
  shapeCasts_S_S1x1 : S_.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x1024_S512x1024_0_0 : ∀ a, (![0, 0] : Fin 2 → Nat) a + S512x1024.size a ≤ S512x1024.size a
  h_S512x1024 : 0 < S512x1024.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  reduces_S512x64_S512 : S512x64.Reduces [1] S512
  shapeCasts_S512_S512x1 : S512.ShapeCasts S512x1
  reduces_S1024x64_S1024 : S1024x64.Reduces [1] S1024
  shapeCasts_S1024_S1x1024 : S1024.ShapeCasts S1x1024
  broadcasts_S512x1_S512x1024 : S512x1.Broadcasts S512x1024
  broadcasts_S1x1024_S512x1024 : S1x1024.Broadcasts S512x1024
  broadcasts_S1x1_S512x1024 : S1x1.Broadcasts S512x1024
  reduces_S512x1024_S512 : S512x1024.Reduces [1] S512
  shapeCasts_S65536x64_S32x2048x64 : S65536x64.ShapeCasts S32x2048x64
  shapeCasts_S65536x1024_S32x2048x1024 : S65536x1024.ShapeCasts S32x2048x1024
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S65536x1024.size a
  hwx0_3 : ∀ i : grid0.Coords, EltTy.bits .f32 = 32 ∨ (Rect.block (s := S65536x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S65536x1024.size a
  hwx0_5 : ∀ i : grid0.Coords, EltTy.bits .f32 = 32 ∨ (Rect.block (s := S65536x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S65536x64.size a
  hwx0_6 : ∀ i : grid0.Coords, EltTy.bits .f32 = 32 ∨ (Rect.block (s := S65536x64) S512x64.size (cc0_transform_6 i) (hinb0_6 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S1024x64 : Shape := ⟨2, ![1024, 64]⟩
abbrev S_ : Shape := ⟨0, ![]⟩
abbrev S65536x1024 : Shape := ⟨2, ![65536, 1024]⟩
abbrev S65536x64 : Shape := ⟨2, ![65536, 64]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S64x1024 : Shape := ⟨2, ![64, 1024]⟩
abbrev S32x2048x1024 : Shape := ⟨3, ![32, 2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S1024x64, .f32⟩
  | .hbm, ⟨2, _⟩ => ⟨S_, .f32⟩
  | .hbm, ⟨3, _⟩ => ⟨S65536x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x64, .f32⟩
  | .hbm, ⟨10, _⟩ => ⟨S65536x64, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S64x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S65536x64, .f32⟩
  | .hbm, ⟨59, _⟩ => ⟨S32x2048x64, .f32⟩
  | .hbm, ⟨60, _⟩ => ⟨S32x2048x1024, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  shapeCasts_S32x2048x64_S65536x64 : S32x2048x64.ShapeCasts S65536x64
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x64_S64x1024_1_0 : S1024x64.Transposes [1, 0] S64x1024
  bcast_S_S65536x1024 : S_.BroadcastsInDim S65536x1024 (![] : Fin 0 → Fin S65536x1024.rank)
  reducesTo_S65536x1024_S65536_d1 : S65536x1024.ReducesTo [1] S65536
  bcast_S_S65536 : S_.BroadcastsInDim S65536 (![] : Fin 0 → Fin S65536.rank)
  shapeCasts_S65536x64_S32x2048x64 : S65536x64.ShapeCasts S32x2048x64
  shapeCasts_S65536x1024_S32x2048x1024 : S65536x1024.ShapeCasts S32x2048x1024
  dot_S65536x64_S64x1024_S65536x1024_1_0_0_1_n_n_wf : DotDims.WF S65536x64 S64x1024 S65536x1024 [1] [0] [0] [1] [] []
  dot_S65536x1024_S1024x64_S65536x64_1_0_0_1_n_n_wf : DotDims.WF S65536x1024 S1024x64 S65536x64 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf

class Facts : Prop extends Facts₀ where

variable [Facts]
-- ==== Proof.Spec.lean ====
/-
  The mathematics of the Gaussian vector quantizer, row by row, on the extended reals.

  For one row `x` (64 coordinates) of the flattened encoder output, the codebook `B` (1024 codes of 64
  coordinates), the precision `p` and one row `u` of uniform noise (1024 entries):

  * `logit x B p c = (0 - (‖x‖² + ‖B c‖² - 2·⟨x, B c⟩)) · p`, the negated squared distance to code `c`
    (by the expansion of the square) times the precision;
  * `gumbel v = 0 - log (0 - log (v + ε) + ε)`, the Gumbel noise of a uniform sample;
  * `score x B p u c = (logit x B p c + gumbel (u c)) / ½`, the tempered noisy logit;
  * `enc z c = exp (z c - rowMax z) / ∑ c', exp (z c' - rowMax z)`, the softmax over the 1024 codes, shifted by the
    row's maximum `rowMax z = max (-∞) (max over c of z c, from -∞)`;
  * `quant x B p u k = ∑ c, enc (score x B p u) c · B c k`, the soft-assigned code.

  `logitsArr` and `quantArr` lay the rows out as [rows, 1024] and [rows, 64] arrays, for any number of rows: the
  kernel's body computes them on a block of 512 rows, the reference on all 65536.

  The float literals stay the extended reals their words denote (`Ideal.ofBits`): the same word stands on both
  sides and is never evaluated.
-/
import Idealize.ShloMosaic.PureOps.Ideal
import Idealize.ShloMosaic.Lib.ValueIdx

noncomputable section

open scoped BigOperators

namespace Cert.Quantizer

open Idealize.ShloMosaic Idealize.ShloMosaic.ValueIdx

/-- The literal 2.0. -/
abbrev two : EReal := Ideal.ofBits .f32 0x40000000#32
/-- The literal the two programs share for 1e-10. -/
abbrev eps : EReal := Ideal.ofBits .f32 0x2EDBE6FF#32
/-- The temperature 0.5. -/
abbrev half : EReal := Ideal.ofBits .f32 0x3F000000#32
/-- The word of -∞, from which a row's maximum is taken. -/
abbrev ninf : EReal := Ideal.ofBits .f32 0xFF800000#32

/-- The negated squared distance of the row `x` to code `c`, by the expansion of the square, times the precision. -/
def logit (x : Fin 64 → EReal) (B : Fin 1024 → Fin 64 → EReal) (p : EReal) (c : Fin 1024) : EReal :=
  (0 - ((∑ k : Fin 64, x k * x k) + (∑ k : Fin 64, B c k * B c k) - two * ∑ k : Fin 64, x k * B c k)) * p

/-- Gumbel noise from a uniform sample. -/
def gumbel (v : EReal) : EReal := 0 - Ideal.log (0 - Ideal.log (v + eps) + eps)

/-- The noisy logit over the temperature. -/
def score (x : Fin 64 → EReal) (B : Fin 1024 → Fin 64 → EReal) (p : EReal) (u : Fin 1024 → EReal) (c : Fin 1024) : EReal :=
  Ideal.div (logit x B p c + gumbel (u c)) half

/-- A row's maximum, taken from -∞ and met with -∞ once more (as the softmax spells it). -/
def rowMax (z : Fin 1024 → EReal) : EReal := max ninf ((Finset.univ : Finset (Fin 1024)).fold max ninf z)

/-- The shifted exponential of a row's entry. -/
def expd (z : Fin 1024 → EReal) (c : Fin 1024) : EReal := Ideal.exp (z c - rowMax z)

/-- The softmax of a row. -/
def enc (z : Fin 1024 → EReal) (c : Fin 1024) : EReal := Ideal.div (expd z c) (∑ c' : Fin 1024, expd z c')

/-- The soft-assigned code: the softmax weights against the codebook's columns. -/
def quant (x : Fin 64 → EReal) (B : Fin 1024 → Fin 64 → EReal) (p : EReal) (u : Fin 1024 → EReal) (k : Fin 64) : EReal :=
  ∑ c : Fin 1024, enc (score x B p u) c * B c k

/-- Row `r` of a two-axis array. -/
abbrev rowOf {n d : Nat} (a : (⟨2, ![n, d]⟩ : Shape).Idx → EReal) (r : Fin n) : Fin d → EReal := fun k => a (ix2 r k)

/-- The logits of every row, as a [rows, 1024] array. -/
def logitsArr {n : Nat} (zf : (⟨2, ![n, 64]⟩ : Shape).Idx → EReal) (book : (⟨2, ![1024, 64]⟩ : Shape).Idx → EReal) (p : EReal) :
    (⟨2, ![n, 1024]⟩ : Shape).Idx → EReal :=
  fun i => logit (rowOf zf (i 0)) (fun c => rowOf book c) p (i 1)

/-- The quantized rows, as a [rows, 64] array. -/
def quantArr {n : Nat} (zf : (⟨2, ![n, 64]⟩ : Shape).Idx → EReal) (book : (⟨2, ![1024, 64]⟩ : Shape).Idx → EReal) (p : EReal)
    (u : (⟨2, ![n, 1024]⟩ : Shape).Idx → EReal) : (⟨2, ![n, 64]⟩ : Shape).Idx → EReal :=
  fun i => quant (rowOf zf (i 0)) (fun c => rowOf book c) p (rowOf u (i 0)) (i 1)

theorem logitsArr_apply {n : Nat} (zf : (⟨2, ![n, 64]⟩ : Shape).Idx → EReal) (book : (⟨2, ![1024, 64]⟩ : Shape).Idx → EReal) (p : EReal)
    (r : Fin n) (c : Fin 1024) :
    logitsArr zf book p (ix2 r c) = logit (rowOf zf r) (fun c => rowOf book c) p c := rfl

theorem quantArr_apply {n : Nat} (zf : (⟨2, ![n, 64]⟩ : Shape).Idx → EReal) (book : (⟨2, ![1024, 64]⟩ : Shape).Idx → EReal) (p : EReal)
    (u : (⟨2, ![n, 1024]⟩ : Shape).Idx → EReal) (r : Fin n) (k : Fin 64) :
    quantArr zf book p u (ix2 r k) = quant (rowOf zf r) (fun c => rowOf book c) p (rowOf u r) k := rfl

end Cert.Quantizer

end
-- ==== Proof.KernelLogits.lean ====
/-
  The value the kernel body stores to the logits window, on a block of 512 rows at the extended reals, is the
  quantizer's logits of those rows (Spec.lean's `logitsArr` at 512 rows) of the block of rows, the codebook and
  the precision, provided the third operand is the codebook transposed.
-/
import proofs.«179091_j41953240547407_1_alg».proof.Proof.Gen.KernelIdeal.Skeleton
import proofs.«179091_j41953240547407_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Quantizer.KernelLogits

open Cert.KernelIdeal Cert.KernelIdeal.Gen Idealize.ShloMosaic Idealize.ShloMosaic.ValueIdx Cert.Quantizer

/-- A sum over axis 1 of a [512, 64] array, at row `r`: the sum of the row's 64 entries. -/
theorem rowsum512 (src : FVec Ideal S512x64 .f32) (h : S512x64.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ k : Fin 64, src (ix2 r k) := by
  refine (Ideal.multiReduction_add_single src _ h hφ hacc (ix1 r)).trans ?_
  refine Finset.sum_congr rfl fun k _ => congrArg src ?_
  funext a
  match a with
  | ⟨0, _⟩ => rfl
  | ⟨1, _⟩ => rfl

/-- A sum over axis 1 of a [1024, 64] array, at row `c`: the sum of the row's 64 entries. -/
theorem rowsum1024 (src : FVec Ideal S1024x64 .f32) (h : S1024x64.Reduces [1] S1024) (hφ : FKind.Formats .f32)
    (hacc : (0x00000000#32 : BitVec 32) = FKind.add.neutral .f32 hφ) (c : Fin 1024) :
    multiReduction (F := Ideal) .add [1] S1024 src 0x00000000#32 h hφ hacc (ix1 c) = ∑ k : Fin 64, src (ix2 c k) := by
  refine (Ideal.multiReduction_add_single src _ h hφ hacc (ix1 c)).trans ?_
  refine Finset.sum_congr rfl fun k _ => congrArg src ?_
  funext a
  match a with
  | ⟨0, _⟩ => rfl
  | ⟨1, _⟩ => rfl

/-- A [512] vector cast to a [512, 1] column reads, at `(r, u)`, the vector at `r`. -/
theorem cast_col {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    omega)

/-- A [512, 1] column broadcast along the rows reads, at `(r, c)`, the column at `(r, 0)`. -/
theorem bcast_col {α : Type} (x : S512x1.Idx → α) (h : S512x1.Broadcasts S512x1024) (r : Fin 512) (c : Fin 1024) :
    broadcastTo S512x1024 x h (ix2 r c) = x (ix2 r (0 : Fin 1)) := by
  refine broadcastTo_apply x h (ix2 r c) (ix2 r (0 : Fin 1)) fun ax => ?_
  match ax with
  | ⟨0, _⟩ => rfl
  | ⟨1, _⟩ => rfl

/-- A [1, 1] array broadcast to [512, 1024] reads its one entry everywhere. -/
theorem bcast_one {α : Type} (x : S1x1.Idx → α) (h : S1x1.Broadcasts S512x1024) (r : Fin 512) (c : Fin 1024) :
    broadcastTo S512x1024 x h (ix2 r c) = x (ix2 (0 : Fin 1) (0 : Fin 1)) := by
  refine broadcastTo_apply x h (ix2 r c) (ix2 (0 : Fin 1) (0 : Fin 1)) fun ax => ?_
  match ax with
  | ⟨0, _⟩ => rfl
  | ⟨1, _⟩ => rfl

theorem lhs_dot_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_dot_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_dot_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_dot_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- The block product into a zero accumulator, at `(r, c)`: the sum over the 64 contracted coordinates of the
    left factor's row `r` times the right factor's column `c`. -/
theorem matmul_at {φ₁ φ₂ : FTy} (lhs : FVec Ideal S512x64 φ₁) (rhs : FVec Ideal S64x1024 φ₂) (r : Fin 512) (c : Fin 1024) :
    FloatOps.matmul dot_S512x64_S64x1024_S512x1024_1_0_0_1_n_n none lhs rhs (constant (F := Ideal) S512x1024 .f32 0x00000000#32) (ix2 r c)
      = ∑ k : Fin 64, lhs (ix2 r k) * rhs (ix2 k c) := by
  refine (Ideal.matmul_constant_zero_apply dot_S512x64_S64x1024_S512x1024_1_0_0_1_n_n none lhs rhs (ix2 r c)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun a => Fin.ext (by
    match a with
    | ⟨0, _⟩ => exact lhs_dot_0 _ _
    | ⟨1, _⟩ => exact (lhs_dot_1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun a => Fin.ext (by
    match a with
    | ⟨0, _⟩ => exact (rhs_dot_0 _ _).trans hk
    | ⟨1, _⟩ => exact rhs_dot_1 _ _)
  rw [el, er]

/-- The value stored to the logits window. -/
theorem logits_payload (v0 : Vec Ideal S512x64 .f32) (v2 : Vec Ideal S1024x64 .f32) (v3 : Vec Ideal S64x1024 .f32) (v6 : Vec Ideal S1x1 .f32)
    (hT : ∀ (k : Fin 64) (c : Fin 1024), v3 (ix2 k c) = v2 (ix2 c k)) :
    k0_pay3 (F := Ideal) v0 v2 v3 v6 = logitsArr v0 v2 (v6 (ix2 0 0)) := by
  funext i
  obtain ⟨r, c, rfl⟩ : ∃ (r : Fin 512) (c : Fin 1024), i = ix2 r c := ⟨i 0, i 1, eq_ix2 i⟩
  rw [logitsArr_apply]
  unfold logit rowOf k0_pay3
  simp only [mulf_apply, subf_apply, addf_apply, broadcast_apply]
  refine congrArg₂ (fun x y : EReal => x * y) ?_ ?_
  · refine congrArg₂ (fun x y : EReal => x - y) Ideal.ofBits_zero_f32 ?_
    refine congrArg₂ (fun x y : EReal => x - y) (congrArg₂ (fun x y : EReal => x + y) ?_ ?_) ?_
    · refine (bcast_col _ _ r c).trans ((cast_col _ _ r 0).trans ((rowsum512 _ _ _ _ r).trans ?_))
      refine Finset.sum_congr rfl fun k _ => ?_
      rw [mulf_apply, shapeCast_self]
    · refine (broadcastTo_1b_ab_apply _ _ r c).trans ((shapeCast_a_1a_apply _ _ 0 c).trans ((rowsum1024 _ _ _ _ c).trans ?_))
      refine Finset.sum_congr rfl fun k _ => ?_
      rw [mulf_apply]
    · refine congrArg₂ (fun x y : EReal => x * y) rfl ?_
      refine (matmul_at _ _ r c).trans (Finset.sum_congr rfl fun k _ => ?_)
      rw [truncf_apply, truncf_apply, shapeCast_self, shapeCast_self, hT]
  · refine (bcast_one _ _ r c).trans ?_
    rw [shapeCast_self]

end Cert.Quantizer.KernelLogits

end
-- ==== Proof.KernelQuant.lean ====
/-
  The value the kernel body stores to the quantized window, on a block of 512 rows at the extended reals, is the
  quantizer's soft-assigned codes of those rows (Spec.lean's `quantArr` at 512 rows) of the block of rows, the
  codebook, the precision and the block of noise, provided the third operand is the codebook transposed.
-/
import proofs.«179091_j41953240547407_1_alg».proof.Proof.Gen.KernelIdeal.Skeleton
import proofs.«179091_j41953240547407_1_alg».proof.Proof.KernelLogits
import proofs.«179091_j41953240547407_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Quantizer.KernelQuant

open Cert.KernelIdeal Cert.KernelIdeal.Gen Idealize.ShloMosaic Idealize.ShloMosaic.ValueIdx Cert.Quantizer

/-- The exponential of a block at an index is the exponential of the element. -/
theorem exp_at {s : Shape} {φ : FTy} (a : FVec Ideal s φ) (i : s.Idx) : exp a i = Ideal.exp (a i) := rfl
/-- The logarithm of a block at an index is the logarithm of the element. -/
theorem log_at {s : Shape} {φ : FTy} (a : FVec Ideal s φ) (i : s.Idx) : log a i = Ideal.log (a i) := rfl

/-- A vector of 512 entries laid out as a column and repeated along 1024 columns reads, at row r, its entry r. -/
theorem col_apply {α : Type} (w : S512.Idx → α) (r : Fin 512) (c : Fin 1024) :
    broadcastTo S512x1024 (shapeCast S512x1 w shapeCasts_S512_S512x1) broadcasts_S512x1_S512x1024 (ix2 r c) = w (ix1 r) := by
  refine (broadcastTo_apply _ _ (ix2 r c) (ix2 r (0 : Fin 1)) ?_).trans ?_
  · intro a
    match a with
    | ⟨0, _⟩ => rfl
    | ⟨1, _⟩ => rfl
  · refine shapeCast_apply _ _ (ix2 r (0 : Fin 1)) (ix1 r) ?_
    rw [Shape.rowMajor_val_one, Shape.rowMajor_val_two]
    show r.val = r.val * 1 + 0
    omega

/-- The maximum over axis 1 of a [512, 1024] block, from the word of -∞, at row r: the fold of max over the row. -/
theorem rowMax_apply (Z : FVec Ideal S512x1024 .f32) (hφ : FKind.Formats .f32)
    (hacc : (0xFF800000#32 : BitVec 32) = 0xFF800000#32) (r : Fin 512) :
    multiReduction (F := Ideal) .maximumf [1] S512 Z 0xFF800000#32 reduces_S512x1024_S512 hφ hacc (ix1 r)
      = (Finset.univ : Finset (Fin 1024)).fold max ninf (fun c : Fin 1024 => Z (ix2 r c)) := by
  refine (Ideal.multiReduction_maximumf_single Z _ reduces_S512x1024_S512 hφ hacc (ix1 r)).trans ?_
  have e : (Z ∘ reduces_S512x1024_S512.lift (ix1 r)) = fun c : Fin 1024 => Z (ix2 r c) :=
    funext fun c => congrArg Z (funext fun a => Fin.ext (match a with | ⟨0, _⟩ => rfl | ⟨1, _⟩ => rfl))
  exact congrArg (fun f => Finset.fold max ninf f (Finset.univ : Finset (Fin 1024))) e

/-- The sum over axis 1 of a [512, 1024] block at row r: the sum over the row. -/
theorem rowSum_apply (E : FVec Ideal S512x1024 .f32) (hφ : FKind.Formats .f32)
    (hacc : (0x00000000#32 : BitVec 32) = 0x00000000#32) (r : Fin 512) :
    multiReduction (F := Ideal) .add [1] S512 E 0x00000000#32 reduces_S512x1024_S512 hφ hacc (ix1 r)
      = ∑ c : Fin 1024, E (ix2 r c) := by
  refine (Ideal.multiReduction_add_single E _ reduces_S512x1024_S512 hφ hacc (ix1 r)).trans ?_
  exact Finset.sum_congr rfl fun c _ => congrArg E (funext fun a => Fin.ext (match a with | ⟨0, _⟩ => rfl | ⟨1, _⟩ => rfl))

/-! The operand indices of the contraction of the [512, 1024] weights against the [1024, 64] codebook. -/

theorem lhs_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The product of a [512, 1024] block with a [1024, 64] block, accumulated into zero, at (r, k): the sum over the
    1024 contracted coordinates of the products. -/
theorem matmul_at {φ₁ φ₂ : FTy} (W : FVec Ideal S512x1024 φ₁) (B : FVec Ideal S1024x64 φ₂) (r : Fin 512) (k : Fin 64) :
    matmul dot_S512x1024_S1024x64_S512x64_1_0_0_1_n_n none W B (constant (F := Ideal) S512x64 .f32 0x00000000#32) (ix2 r k)
      = ∑ c : Fin 1024, W (ix2 r c) * B (ix2 c k) := by
  refine (Ideal.matmul_constant_zero_apply dot_S512x1024_S1024x64_S512x64_1_0_0_1_n_n none W B (ix2 r k)).trans ?_
  rw [← Equiv.sum_comp (contrEquiv1 dot_S512x1024_S1024x64_S512x64_1_0_0_1_n_n 1024 rfl rfl).symm]
  refine Finset.sum_congr rfl fun c _ => ?_
  have hk := contrEquiv1_symm_val dot_S512x1024_S1024x64_S512x64_1_0_0_1_n_n 1024 rfl rfl c
  have el : dot_S512x1024_S1024x64_S512x64_1_0_0_1_n_n.lhsIdx (ix2 r k) ((contrEquiv1 dot_S512x1024_S1024x64_S512x64_1_0_0_1_n_n 1024 rfl rfl).symm c) = ix2 r c := funext fun a => Fin.ext (by
    match a with
    | ⟨0, _⟩ => exact lhs_0 _ _
    | ⟨1, _⟩ => exact (lhs_1 _ _).trans hk)
  have er : dot_S512x1024_S1024x64_S512x64_1_0_0_1_n_n.rhsIdx (ix2 r k) ((contrEquiv1 dot_S512x1024_S1024x64_S512x64_1_0_0_1_n_n 1024 rfl rfl).symm c) = ix2 c k := funext fun a => Fin.ext (by
    match a with
    | ⟨0, _⟩ => exact (rhs_0 _ _).trans hk
    | ⟨1, _⟩ => exact rhs_1 _ _)
  rw [el, er]

/-- The noisy logits over the temperature, at (r, c): the score of row r at code c. -/
theorem score_at (v0 : Vec Ideal S512x64 .f32) (v2 : Vec Ideal S1024x64 .f32) (v3 : Vec Ideal S64x1024 .f32) (v5 : Vec Ideal S512x1024 .f32) (v6 : Vec Ideal S1x1 .f32)
    (hT : ∀ (k : Fin 64) (c : Fin 1024), v3 (ix2 k c) = v2 (ix2 c k)) (r : Fin 512) (c : Fin 1024) :
    Ideal.div (k0_pay4 (F := Ideal) v0 v2 v3 v5 v6 (ix2 r c)) (Scalar.ofBits (F := Ideal) .f32 0x3F000000#32)
      = score (rowOf v0 r) (fun c => rowOf v2 c) (v6 (ix2 0 0)) (rowOf v5 r) c := by
  unfold k0_pay4
  rw [KernelLogits.logits_payload v0 v2 v3 v6 hT]
  rw [addf_apply, logitsArr_apply, subf_apply, broadcast_apply, log_at, addf_apply, subf_apply, broadcast_apply, log_at,
    addf_apply]
  simp only [Ideal.ofBits_def, Ideal.ofBits_zero_f32]
  rfl

/-- The shifted exponentials of a block at (r, c): the shifted exponential of row r's entry c. -/
theorem expd_at (Zb : FVec Ideal S512x1024 .f32) (hφ : FKind.Formats .f32) (hacc : (0xFF800000#32 : BitVec 32) = 0xFF800000#32)
    (r : Fin 512) (z : Fin 1024 → EReal) (hz : ∀ c : Fin 1024, Zb (ix2 r c) = z c) (c : Fin 1024) :
    exp (subf Zb (broadcastTo S512x1024 (shapeCast S512x1 (maximumf (broadcast S512 (Scalar.ofBits (F := Ideal) .f32 0xFF800000#32))
        (multiReduction (F := Ideal) .maximumf [1] S512 Zb 0xFF800000#32 reduces_S512x1024_S512 hφ hacc)) shapeCasts_S512_S512x1)
        broadcasts_S512x1_S512x1024)) (ix2 r c) = expd z c := by
  rw [exp_at, subf_apply, col_apply, maximumf_apply, broadcast_apply, rowMax_apply, hz]
  have e : (fun c : Fin 1024 => Zb (ix2 r c)) = z := funext hz
  rw [e]
  rfl

/-- The stored value at (r, k), for any block of noisy logits and any codebook: the softmax of the row of scores against
    the codebook's column. -/
theorem pay1_at (B : FVec Ideal S1024x64 .bf16) (Y : FVec Ideal S512x1024 .f32) (h : Ideal .f32) (r : Fin 512) (k : Fin 64)
    (z : Fin 1024 → EReal) (hz : ∀ c : Fin 1024, Ideal.div (Y (ix2 r c)) h = z c) :
    k0_pay1 (F := Ideal) B Y h (ix2 r k) = ∑ c : Fin 1024, enc z c * B (ix2 c k) := by
  have hz' : ∀ c : Fin 1024, divf Y (broadcast S512x1024 h) (ix2 r c) = z c := hz
  unfold k0_pay1
  refine (matmul_at _ _ r k).trans ?_
  refine Finset.sum_congr rfl fun c _ => ?_
  refine congrArg (· * B (ix2 c k)) ?_
  rw [truncf_apply, divf_apply, col_apply, rowSum_apply]
  simp only [expd_at _ _ _ r z hz']
  rfl

/-- The value stored to the quantized window. -/
theorem quant_payload (v0 : Vec Ideal S512x64 .f32) (v2 : Vec Ideal S1024x64 .f32) (v3 : Vec Ideal S64x1024 .f32) (v5 : Vec Ideal S512x1024 .f32) (v6 : Vec Ideal S1x1 .f32)
    (hT : ∀ (k : Fin 64) (c : Fin 1024), v3 (ix2 k c) = v2 (ix2 c k)) :
    k0_pay1 (F := Ideal) (k0_pay2 (F := Ideal) v2) (k0_pay4 (F := Ideal) v0 v2 v3 v5 v6) (Scalar.ofBits .f32 0x3F000000#32) = quantArr v0 v2 (v6 (ix2 0 0)) v5 := by
  funext i
  obtain ⟨r, k, rfl⟩ : ∃ (r : Fin 512) (k : Fin 64), i = ix2 r k := ⟨i 0, i 1, eq_ix2 i⟩
  rw [quantArr_apply]
  refine (pay1_at _ _ _ r k (score (rowOf v0 r) (fun c => rowOf v2 c) (v6 (ix2 0 0)) (rowOf v5 r))
    (fun c => score_at v0 v2 v3 v5 v6 hT r c)).trans ?_
  unfold quant k0_pay2
  exact Finset.sum_congr rfl fun c _ => rfl

end Cert.Quantizer.KernelQuant

end
-- ==== Proof.KernelArrays.lean ====
/-
  The kernel's program, read at the extended reals: its two array results after the region are the quantizer's
  logits and soft-assigned codes of all 65536 rows, and @main's three results are their reshapes and the precision.

  The region runs the body at 128 points; at point `t` the body sees rows `512·t … 512·t + 511` of the flattened
  input and of the noise, the whole codebook, the whole transposed codebook and the one-entry precision. What it
  stores is the logits and the soft-assigned codes of its 512 rows (KernelLogits.lean, KernelQuant.lean), which
  depend on a row only through that row: so point `t` writes back block `t` of `logitsArr` / `quantArr` of ALL
  rows, and since row `R` lies in the block of point `R / 512` the blocks tile both result arrays. The host lines
  before the region supply the flattened rows (a reshape), the transposed codebook (whose `(k, c)` entry is the
  codebook's `(c, k)`) and the precision `½ / max (exp ·) 1e-10`; the lines after it reshape the two arrays.
-/
import proofs.«179091_j41953240547407_1_alg».proof.Proof.Gen.KernelIdeal.Frame
import proofs.«179091_j41953240547407_1_alg».proof.Proof.KernelQuant
import Idealize.ShloMosaic.Lib.Pipeline.Value
import Idealize.ShloMosaic.Lib.StableHlo.Run

set_option maxRecDepth 16384

noncomputable section

namespace Cert.Quantizer.KernelArrays

open Cert.KernelIdeal Cert.KernelIdeal.Gen Idealize.ShloMosaic Idealize.ShloMosaic.TcCoe Idealize.ShloMosaic.ValueIdx Cert.Quantizer
open Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

theorem logitsOut_eq (x0 : Vec Ideal S512x64 .f32) (x1 : Vec Ideal S1024x64 .f32) (x2 : Vec Ideal S64x1024 .f32) (x3 : Vec Ideal S512x1024 .f32) (x4 : Vec Ideal S1x1 .f32) :
    out0_5 (F := Ideal) x0 x1 x2 x3 x4 = k0_pay3 (F := Ideal) x0 x1 x2 x4 := by
  unfold out0_5
  rw [View.canon_unit_zero zeros2]
  simp only [View.ld_unit_zero (S := S512x64) zeros2, View.ld_unit_zero (S := S1024x64) zeros2, View.ld_unit_zero (S := S64x1024) zeros2, View.ld_unit_zero (S := S1x1) zeros2]

theorem quantOut_eq (x0 : Vec Ideal S512x64 .f32) (x1 : Vec Ideal S1024x64 .f32) (x2 : Vec Ideal S64x1024 .f32) (x3 : Vec Ideal S512x1024 .f32) (x4 : Vec Ideal S1x1 .f32) :
    out0_6 (F := Ideal) x0 x1 x2 x3 x4 = k0_pay1 (F := Ideal) (k0_pay2 (F := Ideal) x1) (k0_pay4 (F := Ideal) x0 x1 x2 x3 x4) (Scalar.ofBits .f32 0x3F000000#32) := by
  unfold out0_6
  rw [View.canon_unit_zero zeros2]
  simp only [View.ld_unit_zero (S := S512x64) zeros2, View.ld_unit_zero (S := S1024x64) zeros2, View.ld_unit_zero (S := S64x1024) zeros2, View.ld_unit_zero (S := S512x1024) zeros2, View.ld_unit_zero (S := S1x1) zeros2]

theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The windows' blocks, read off the arrays as the region finds them -/

/-- Block `t` of the flattened rows: rows `512·t … 512·t + 511`. -/
theorem rows_block (c : Dev nD) (t : Fin cfg0.N) (r : Fin 512) (k : Fin 64) (h : t.val * 512 + r.val < 65536) :
    iblk m c 0 t (ix2 r k) = V m c main_v0 (ix2 ⟨t.val * 512 + r.val, h⟩ k) := by
  obtain ⟨e0, e1, -⟩ := index_facts t
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = t.val * 512 + r.val; omega
  | ⟨1, _⟩ => show win0_0.index t (1 : Fin 2) * 64 + 1 * k.val = k.val; omega

/-- The codebook's window is the whole codebook at every point. -/
theorem book_block (c : Dev nD) (t : Fin cfg0.N) : iblk m c 1 t = V m c main_arg1 := by
  obtain ⟨-, -, e0, e1, -⟩ := index_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 64 + 1 * (y 1).val = (y 1).val; omega

/-- So is the transposed codebook's. -/
theorem bookT_block (c : Dev nD) (t : Fin cfg0.N) : iblk m c 2 t = V m c main_v1 := by
  obtain ⟨-, -, -, -, e0, e1, -⟩ := index_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 64 + 1 * (y 0).val = (y 0).val; omega
  | ⟨1, _⟩ => show win0_2.index t (1 : Fin 2) * 1024 + 1 * (y 1).val = (y 1).val; omega

/-- Block `t` of the noise: the same rows. -/
theorem noise_block (c : Dev nD) (t : Fin cfg0.N) (r : Fin 512) (cc : Fin 1024) (h : t.val * 512 + r.val < 65536) :
    iblk m c 3 t (ix2 r cc) = V m c main_arg3 (ix2 ⟨t.val * 512 + r.val, h⟩ cc) := by
  obtain ⟨-, -, -, -, -, -, e0, e1, -⟩ := index_facts t
  show V m c main_arg3 (((cfg0.win 3).blk t).view.emb (ix2 r cc)) = _
  refine congrArg (V m c main_arg3) (funext fun a => Fin.ext ?_)
  match a with
  | ⟨0, _⟩ => show win0_3.index t (0 : Fin 2) * 512 + 1 * r.val = t.val * 512 + r.val; omega
  | ⟨1, _⟩ => show win0_3.index t (1 : Fin 2) * 1024 + 1 * cc.val = cc.val; omega

/-- The precision's window is the one-entry array. -/
theorem prec_block (c : Dev nD) (t : Fin cfg0.N) : iblk m c 4 t = V m c main_v5 := by
  obtain ⟨-, -, -, -, -, -, -, -, e0, e1, -⟩ := index_facts t
  funext y
  show V m c main_v5 (((cfg0.win 4).blk t).view.emb y) = V m c main_v5 y
  refine congrArg (V m c main_v5) (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-! ## The arrays the host lines before the region wrote -/

/-- The flattened rows are the reshape of the first argument. -/
theorem rows_eq (c : Dev nD) :
    (V m c main_v0 : S65536x64.Idx → EReal) = shapeCast S65536x64 (m ((c : Thread nD τ).loc main_arg0)) shapeCasts_S32x2048x64_S65536x64 := by
  show StableHlo.after hostOps0 (fun b => m (c, b)) (Proc.devRef .tc main_v0) = _
  after_results <;> rfl

/-- The third operand is the codebook transposed. -/
theorem bookT_eq (c : Dev nD) :
    (V m c main_v1 : S64x1024.Idx → EReal) = transpose S64x1024 [1, 0] (m ((c : Thread nD τ).loc main_arg1)) transposes_S1024x64_S64x1024_1_0 := by
  show StableHlo.after hostOps0 (fun b => m (c, b)) (Proc.devRef .tc main_v1) = _
  after_results <;> rfl

/-- The precision the host computes: ½ over the larger of `exp` of the third argument and 1e-10. -/
def precision (x2 : S_.Idx → EReal) : S_.Idx → EReal :=
  Host.divf (F := Ideal) (constant (F := Ideal) S_ .f32 0x3F000000#32) (maximumf (Host.exp (F := Ideal) x2) (constant (F := Ideal) S_ .f32 0x2EDBE6FF#32))

/-- The one-entry array the kernel reads it from. -/
theorem prec_eq (c : Dev nD) :
    (V m c main_v5 : S1x1.Idx → EReal) = shapeCast S1x1 (precision (m ((c : Thread nD τ).loc main_arg2))) shapeCasts_S_S1x1 := by
  show StableHlo.after hostOps0 (fun b => m (c, b)) (Proc.devRef .tc main_v5) = _
  after_results <;> rfl

/-- The scalar itself, as the second result. -/
theorem prec_scalar_eq (c : Dev nD) :
    (V m c main_v4 : S_.Idx → EReal) = precision (m ((c : Thread nD τ).loc main_arg2)) := by
  show StableHlo.after hostOps0 (fun b => m (c, b)) (Proc.devRef .tc main_v4) = _
  after_results <;> rfl

/-! ## What each point writes back -/

/-- The transposed codebook's entry `(k, c)` is the codebook's `(c, k)`. -/
theorem bookT_apply (c : Dev nD) (k : Fin 64) (cc : Fin 1024) :
    V m c main_v1 (ix2 k cc) = V m c main_arg1 (ix2 cc k) := by
  rw [bookT_eq, V_main_arg1]
  exact transpose_apply [1, 0] (m ((c : Thread nD τ).loc main_arg1)) transposes_S1024x64_S64x1024_1_0 (ix2 k cc) (ix2 cc k)
    (fun b => by match b with | ⟨0, _⟩ => rfl | ⟨1, _⟩ => rfl)

/-- The logits of a block of rows are the block of the logits of all rows. -/
theorem logitsArr_rows (ZF : S65536x64.Idx → EReal) (BOOK : S1024x64.Idx → EReal) (p : EReal) (B0 : S512x64.Idx → EReal)
    (n : Nat) (r : Fin 512) (cc : Fin 1024) (h : n * 512 + r.val < 65536)
    (h0 : ∀ k : Fin 64, B0 (ix2 r k) = ZF (ix2 ⟨n * 512 + r.val, h⟩ k)) :
    logitsArr B0 BOOK p (ix2 r cc) = logitsArr ZF BOOK p (ix2 ⟨n * 512 + r.val, h⟩ cc) := by
  rw [logitsArr_apply, logitsArr_apply]
  exact congrArg (fun x => logit x (fun c => rowOf BOOK c) p cc) (funext h0)

/-- The soft-assigned codes of a block of rows are the block of those of all rows. -/
theorem quantArr_rows (ZF : S65536x64.Idx → EReal) (BOOK : S1024x64.Idx → EReal) (p : EReal) (U : S65536x1024.Idx → EReal)
    (B0 : S512x64.Idx → EReal) (B3 : S512x1024.Idx → EReal)
    (n : Nat) (r : Fin 512) (k : Fin 64) (h : n * 512 + r.val < 65536)
    (h0 : ∀ k : Fin 64, B0 (ix2 r k) = ZF (ix2 ⟨n * 512 + r.val, h⟩ k))
    (h3 : ∀ cc : Fin 1024, B3 (ix2 r cc) = U (ix2 ⟨n * 512 + r.val, h⟩ cc)) :
    quantArr B0 BOOK p B3 (ix2 r k) = quantArr ZF BOOK p U (ix2 ⟨n * 512 + r.val, h⟩ k) := by
  rw [quantArr_apply, quantArr_apply]
  have e0 : rowOf B0 r = rowOf ZF ⟨n * 512 + r.val, h⟩ := funext h0
  have e3 : rowOf B3 r = rowOf U ⟨n * 512 + r.val, h⟩ := funext h3
  rw [e0, e3]

/-- Point `t` writes back block `t` of the logits of all rows. -/
theorem logits_flushed (c : Dev nD) (t : Fin cfg0.N) :
    (dats m 0 c).flushed 5 t = ((cfg0.win 5).blk t).view.read (Elt Ideal)
      (logitsArr (V m c main_v0) (V m c main_arg1) (V m c main_v5 (ix2 0 0))) := by
  show (cfg0.win 5).cut (grid0.coords t) ((dats m 0 c).after 5 t) = _
  rw [after0_5, logitsOut_eq, book_block, bookT_block, prec_block,
    KernelLogits.logits_payload _ _ _ _ (bookT_apply m c)]
  have ht : t.val < 128 := Nat.lt_of_lt_of_eq t.isLt N_0
  obtain ⟨-, -, -, -, -, -, -, -, -, -, e0, e1, -⟩ := index_facts t
  funext j
  obtain ⟨r, cc, rfl⟩ : ∃ (r : Fin 512) (cc : Fin 1024), j = ix2 r cc := ⟨j 0, j 1, eq_ix2 j⟩
  have hr : t.val * 512 + r.val < 65536 := by have := r.isLt; omega
  have he : ((cfg0.win 5).blk t).view.emb (ix2 r cc) = ix2 ⟨t.val * 512 + r.val, hr⟩ cc := by
    funext a; apply Fin.ext
    match a with
    | ⟨0, _⟩ => show win0_5.index t (0 : Fin 2) * 512 + 1 * r.val = t.val * 512 + r.val; omega
    | ⟨1, _⟩ => show win0_5.index t (1 : Fin 2) * 1024 + 1 * cc.val = cc.val; omega
  show logitsArr (iblk m c 0 t) (V m c main_arg1) (V m c main_v5 (ix2 0 0)) (ix2 r cc)
    = logitsArr (V m c main_v0) (V m c main_arg1) (V m c main_v5 (ix2 0 0)) (((cfg0.win 5).blk t).view.emb (ix2 r cc))
  rw [he]
  exact logitsArr_rows _ _ _ _ t.val r cc hr (fun k => rows_block m c t r k hr)

/-- Point `t` writes back block `t` of the soft-assigned codes of all rows. -/
theorem quant_flushed (c : Dev nD) (t : Fin cfg0.N) :
    (dats m 0 c).flushed 6 t = ((cfg0.win 6).blk t).view.read (Elt Ideal)
      (quantArr (V m c main_v0) (V m c main_arg1) (V m c main_v5 (ix2 0 0)) (V m c main_arg3)) := by
  show (cfg0.win 6).cut (grid0.coords t) ((dats m 0 c).after 6 t) = _
  rw [after0_6, quantOut_eq, book_block, bookT_block, prec_block,
    KernelQuant.quant_payload _ _ _ _ _ (bookT_apply m c)]
  have ht : t.val < 128 := Nat.lt_of_lt_of_eq t.isLt N_0
  obtain ⟨-, -, -, -, -, -, -, -, -, -, -, -, e0, e1⟩ := index_facts t
  funext j
  obtain ⟨r, k, rfl⟩ : ∃ (r : Fin 512) (k : Fin 64), j = ix2 r k := ⟨j 0, j 1, eq_ix2 j⟩
  have hr : t.val * 512 + r.val < 65536 := by have := r.isLt; omega
  have he : ((cfg0.win 6).blk t).view.emb (ix2 r k) = ix2 ⟨t.val * 512 + r.val, hr⟩ k := by
    funext a; apply Fin.ext
    match a with
    | ⟨0, _⟩ => show win0_6.index t (0 : Fin 2) * 512 + 1 * r.val = t.val * 512 + r.val; omega
    | ⟨1, _⟩ => show win0_6.index t (1 : Fin 2) * 64 + 1 * k.val = k.val; omega
  show quantArr (iblk m c 0 t) (V m c main_arg1) (V m c main_v5 (ix2 0 0)) (iblk m c 3 t) (ix2 r k)
    = quantArr (V m c main_v0) (V m c main_arg1) (V m c main_v5 (ix2 0 0)) (V m c main_arg3) (((cfg0.win 6).blk t).view.emb (ix2 r k))
  rw [he]
  exact quantArr_rows _ _ _ _ _ _ t.val r k hr (fun k => rows_block m c t r k hr) (fun cc => noise_block m c t r cc hr)

/-! ## The blocks tile the two result arrays -/

theorem mem_logits_block (t : Fin cfg0.N) (i : S65536x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_0).slice (win0_5.rect t)).set ↔ _
  rw [View.set_slice_whole, Rect.mem_set_unit]
  exact Iff.rfl

theorem mem_quant_block (t : Fin cfg0.N) (i : S65536x64.Idx) :
    i ∈ ((cfg0.win 6).blk t).view.set ↔ ∀ a : Fin 2, win0_6.index t a * S512x64.size a ≤ (i a).val ∧ (i a).val < win0_6.index t a * S512x64.size a + S512x64.size a := by
  show i ∈ ((View.whole main_v6_1).slice (win0_6.rect t)).set ↔ _
  rw [View.set_slice_whole, Rect.mem_set_unit]
  exact Iff.rfl

/-- Row `R` is in the block of point `R / 512`. -/
theorem logits_cover (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  have hN : cfg0.N = 128 := N_0
  let t : Fin cfg0.N := ⟨(i 0).val / 512, by rw [hN]; omega⟩
  obtain ⟨-, -, -, -, -, -, -, -, -, -, e0, e1, -⟩ := index_facts t
  have e0' : win0_5.index t (0 : Fin 2) = (i 0).val / 512 := e0
  refine ⟨t, flush0_5 t, ?_⟩
  rw [mem_logits_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem quant_cover (i : S65536x64.Idx) :
    ∃ t : Fin cfg0.N, (cfg0.win 6).flush t = true ∧ i ∈ ((cfg0.win 6).blk t).view.set := by
  have hi0 : (i 0).val < 65536 := (i 0).isLt
  have hi1 : (i 1).val < 64 := (i 1).isLt
  have hN : cfg0.N = 128 := N_0
  let t : Fin cfg0.N := ⟨(i 0).val / 512, by rw [hN]; omega⟩
  obtain ⟨-, -, -, -, -, -, -, -, -, -, -, -, e0, e1⟩ := index_facts t
  have e0' : win0_6.index t (0 : Fin 2) = (i 0).val / 512 := e0
  refine ⟨t, flush0_6 t, ?_⟩
  rw [mem_quant_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 64 ≤ (i 1).val ∧ (i 1).val < win0_6.index t (1 : Fin 2) * 64 + 64; omega

/-! ## The two result arrays after the region -/

theorem logits_final (c : Dev nD) :
    (dats m 0 c).arrAt 5 cfg0.N = logitsArr (V m c main_v0) (V m c main_arg1) (V m c main_v5 (ix2 0 0)) :=
  (dats m 0 c).arrAt_eq_of_cover 5 _ (fun t _ => logits_flushed m c t) logits_cover

theorem quant_final (c : Dev nD) :
    (dats m 0 c).arrAt 6 cfg0.N = quantArr (V m c main_v0) (V m c main_arg1) (V m c main_v5 (ix2 0 0)) (V m c main_arg3) :=
  (dats m 0 c).arrAt_eq_of_cover 6 _ (fun t _ => quant_flushed m c t) quant_cover

theorem prec_entry (c : Dev nD) : V m c main_v5 (ix2 0 0) = precision (m ((c : Thread nD τ).loc main_arg2)) ix0 := by
  rw [prec_eq]
  exact shapeCast_apply _ shapeCasts_S_S1x1 (ix2 0 0) ix0 rfl

/-! ## The host lines after the region -/

/-- The first result is the reshape of the quantized rows' array. -/
theorem tail_quant (c : Dev nD) :
    Pipeline.afterTail₀ cfgs (dats m) 0 (V0 m) [hostOps1] c main_v7
      = shapeCast S32x2048x64 ((dats m 0 c).arrAt 6 cfg0.N) shapeCasts_S65536x64_S32x2048x64 := by
  unfold Pipeline.afterTail₀
  show StableHlo.after hostOps1 _ (Proc.devRef .tc main_v7) = _
  after_results
  have e := Pipeline.withArrays_arr (τ := τ) spec0 launch0.win.arr_inj c (V0 m c) (fun w => (dats m 0 c).arrAt w (cfgs 0).N) 6
  rw [show Pipeline.withArrays (cfgs 0).spec c (V0 m c) (fun w => (dats m 0 c).arrAt w (cfgs 0).N) (Proc.tc.devRef main_v6_1) = (dats m 0 c).arrAt 6 cfg0.N from e]
  rfl

/-- The third result is the reshape of the logits' array. -/
theorem tail_logits (c : Dev nD) :
    Pipeline.afterTail₀ cfgs (dats m) 0 (V0 m) [hostOps1] c main_v8
      = shapeCast S32x2048x1024 ((dats m 0 c).arrAt 5 cfg0.N) shapeCasts_S65536x1024_S32x2048x1024 := by
  unfold Pipeline.afterTail₀
  show StableHlo.after hostOps1 _ (Proc.devRef .tc main_v8) = _
  after_results
  have e := Pipeline.withArrays_arr (τ := τ) spec0 launch0.win.arr_inj c (V0 m c) (fun w => (dats m 0 c).arrAt w (cfgs 0).N) 5
  rw [show Pipeline.withArrays (cfgs 0).spec c (V0 m c) (fun w => (dats m 0 c).arrAt w (cfgs 0).N) (Proc.tc.devRef main_v6_0) = (dats m 0 c).arrAt 5 cfg0.N from e]
  rfl

/-- The second result, the precision, is untouched by the region and the lines after it. -/
theorem tail_prec (c : Dev nD) :
    Pipeline.afterTail₀ cfgs (dats m) 0 (V0 m) [hostOps1] c main_v4 = precision (m ((c : Thread nD τ).loc main_arg2)) := by
  unfold Pipeline.afterTail₀
  rw [StableHlo.after_of_forall_not_mem (b := Proc.devRef .tc main_v4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v4 (by exact (by decide : ∀ w, Pipeline.arrRef spec0 w ≠ main_v4))]
  exact prec_scalar_eq m c

/-! ## The run, read -/

theorem logits_final_args (c : Dev nD) :
    (dats m 0 c).arrAt 5 cfg0.N = logitsArr (shapeCast S65536x64 (m ((c : Thread nD τ).loc main_arg0)) shapeCasts_S32x2048x64_S65536x64)
      (m ((c : Thread nD τ).loc main_arg1)) (precision (m ((c : Thread nD τ).loc main_arg2)) ix0) := by
  rw [logits_final, rows_eq, V_main_arg1, prec_entry]

theorem quant_final_args (c : Dev nD) :
    (dats m 0 c).arrAt 6 cfg0.N = quantArr (shapeCast S65536x64 (m ((c : Thread nD τ).loc main_arg0)) shapeCasts_S32x2048x64_S65536x64)
      (m ((c : Thread nD τ).loc main_arg1)) (precision (m ((c : Thread nD τ).loc main_arg2)) ix0) (m ((c : Thread nD τ).loc main_arg3)) := by
  rw [quant_final, rows_eq, V_main_arg1, prec_entry, V_main_arg3]

/-- Every weakly fair execution of the kernel's program ends with the first result at the reshape of the soft-assigned
    codes of all rows, the second at the precision, the third at the reshape of the logits of all rows — each a function
    of the arguments — and the arguments unchanged. -/
theorem run : θ_run defs (onTc (τ := τ) (main (F := Ideal))) ⟨m, fun _ => 0, ρ⟩ (fun r => ∀ c : Dev nD,
      r.2.mem ((c.tc : Thread nD τ).loc main_v7) = shapeCast S32x2048x64 (quantArr (shapeCast S65536x64 (m ((c.tc : Thread nD τ).loc main_arg0)) shapeCasts_S32x2048x64_S65536x64)
          (m ((c.tc : Thread nD τ).loc main_arg1)) (precision (m ((c.tc : Thread nD τ).loc main_arg2)) ix0) (m ((c.tc : Thread nD τ).loc main_arg3))) shapeCasts_S65536x64_S32x2048x64
      ∧ r.2.mem ((c.tc : Thread nD τ).loc main_v4) = precision (m ((c.tc : Thread nD τ).loc main_arg2))
      ∧ r.2.mem ((c.tc : Thread nD τ).loc main_v8) = shapeCast S32x2048x1024 (logitsArr (shapeCast S65536x64 (m ((c.tc : Thread nD τ).loc main_arg0)) shapeCasts_S32x2048x64_S65536x64)
          (m ((c.tc : Thread nD τ).loc main_arg1)) (precision (m ((c.tc : Thread nD τ).loc main_arg2)) ix0)) shapeCasts_S65536x1024_S32x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v7 (Pipeline.mem_restRefs_of main_v7 (by decide) (by decide))).trans (tail_quant m c)).trans
        (congrArg (fun x => shapeCast S32x2048x64 x shapeCasts_S65536x64_S32x2048x64) (quant_final_args m c)),
      ((h c).2 main_v4 (Pipeline.mem_restRefs_of main_v4 (by decide) (by decide))).trans (tail_prec m c),
      (((h c).2 main_v8 (Pipeline.mem_restRefs_of main_v8 (by decide) (by decide))).trans (tail_logits m c)).trans
        (congrArg (fun x => shapeCast S32x2048x1024 x shapeCasts_S65536x1024_S32x2048x1024) (logits_final_args m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.Quantizer.KernelArrays

end
-- ==== Proof.ReferenceLogits.lean ====
/-
  The reference's logits before their final reshape, at the extended reals, are the quantizer's logits of all
  65536 rows (Spec.lean's `logitsArr`).
-/
import proofs.«179091_j41953240547407_1_alg».proof.Proof.Gen.ReferenceIdeal.Read
import proofs.«179091_j41953240547407_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Quantizer.ReferenceLogits

open Cert.ReferenceIdeal Cert.ReferenceIdeal.Read Idealize.ShloMosaic Idealize.ShloMosaic.ValueIdx Cert.Quantizer

/-- The row of the first operand a row's sum of squares reads. -/
theorem idx_rowsq (R : Fin 65536) (c : Fin 1024) (k : Fin 64) :
    idx_main_v5 (idx_main_v6 (idx_main_v10 (ix2 R c))) k = ix2 R k :=
  funext fun a => Fin.ext (by match a with | ⟨0, _⟩ => rfl | ⟨1, _⟩ => rfl)

/-- The row of the codebook a code's sum of squares reads. -/
theorem idx_colsq (R : Fin 65536) (c : Fin 1024) (k : Fin 64) :
    idx_main_v8 (idx_main_v9 (idx_main_v11 (ix2 R c))) k = ix2 c k :=
  funext fun a => Fin.ext (by match a with | ⟨0, _⟩ => rfl | ⟨1, _⟩ => rfl)

/-- The left operand's entry of the product's term `k`. -/
theorem idx_dot_l (R : Fin 65536) (c : Fin 1024) (k : Fin 64) :
    lidx_main_v14 (ix2 R c) k = ix2 R k :=
  funext fun a => Fin.ext (by match a with | ⟨0, _⟩ => rfl | ⟨1, _⟩ => rfl)

/-- The codebook's entry of the product's term `k`, through the transpose. -/
theorem idx_dot_r (R : Fin 65536) (c : Fin 1024) (k : Fin 64) :
    idx_main_v13 (ridx_main_v14 (ix2 R c) k) = ix2 c k :=
  funext fun a => Fin.ext (by match a with | ⟨0, _⟩ => rfl | ⟨1, _⟩ => rfl)

/-- The reference's logits, before the reshape to [32, 2048, 1024]. -/
theorem logits_eq (x0 : (⟨S32x2048x64, .f32⟩ : BufTy).Contents (Elt Ideal)) (x1 : (⟨S1024x64, .f32⟩ : BufTy).Contents (Elt Ideal))
    (x2 : (⟨S_, .f32⟩ : BufTy).Contents (Elt Ideal)) :
    val_main_v20 (F := Ideal) x0 x1 x2 = logitsArr (val_main_v3 (F := Ideal) x0) x1 (val_main_v2 (F := Ideal) x2 ix0) := by
  funext i
  obtain ⟨R, c, rfl⟩ : ∃ (R : Fin 65536) (c : Fin 1024), i = ix2 R c := ⟨i 0, i 1, eq_ix2 i⟩
  rw [logitsArr_apply]
  unfold logit rowOf
  rw [val_main_v20_apply, val_main_v18_apply, val_main_v17_apply, val_main_v12_apply, val_main_v16_apply,
    val_main_v10_apply, val_main_v6_apply, val_main_v5_apply, val_main_v11_apply, val_main_v9_apply, val_main_v8_apply,
    val_main_v15_apply, val_main_cst_3_apply, val_main_v14_apply, val_main_v19_apply, val_main_cst_1_apply,
    val_main_cst_2_apply]
  simp only [val_main_v4_apply, val_main_v7_apply, val_main_v13_apply, idx_rowsq, idx_colsq, idx_dot_l, idx_dot_r]
  simp only [Ideal.mulf_def, Ideal.hostNegf_def, Ideal.negf_def, Ideal.subf_def, Ideal.addf_def, Ideal.ofBits_def,
    Ideal.ofBits_zero_f32, zero_add]
  rw [zero_sub]

end Cert.Quantizer.ReferenceLogits

end
-- ==== Proof.ReferenceQuant.lean ====
/-
  The reference's quantized rows before their final reshape, at the extended reals, are the quantizer's
  soft-assigned codes of all 65536 rows (Spec.lean's `quantArr`).
-/
import proofs.«179091_j41953240547407_1_alg».proof.Proof.Gen.ReferenceIdeal.Read
import proofs.«179091_j41953240547407_1_alg».proof.Proof.ReferenceLogits
import proofs.«179091_j41953240547407_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Quantizer.ReferenceQuant

open Cert.ReferenceIdeal Cert.ReferenceIdeal.Read Idealize.ShloMosaic Idealize.ShloMosaic.ValueIdx Cert.Quantizer

/-- The row index `R` with column `k` put back is (R, k). -/
private theorem lift_ix1 (h : S65536x1024.Reduces [1] S65536) (R : Fin 65536) (k : Fin (S65536x1024.size 1)) :
    h.lift (ix1 R) k = ix2 R (⟨k.val, k.isLt⟩ : Fin 1024) := by
  funext c; apply Fin.ext
  fin_cases c <;> rfl

/-- The tempered noisy logit of row `R` and code `c`. -/
theorem score_eq (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (R : Fin 65536) (c : Fin 1024) :
    val_main_v31 (F := Ideal) x0 x1 x2 x3 (ix2 R c)
      = score (rowOf (val_main_v3 (F := Ideal) x0) R) (fun c => rowOf x1 c) (val_main_v2 (F := Ideal) x2 ix0) (rowOf x3 R) c := by
  rw [val_main_v31_apply, val_main_v29_apply, val_main_v30_apply, val_main_cst_6_apply, val_main_v28_apply, val_main_v27_apply,
    val_main_v26_apply, val_main_v25_apply, val_main_cst_5_apply, val_main_v24_apply, val_main_v23_apply, val_main_v22_apply,
    val_main_v21_apply, val_main_cst_4_apply, ReferenceLogits.logits_eq, logitsArr_apply]
  unfold score gumbel
  simp only [Ideal.hostDivf_def, Ideal.addf_def, Ideal.hostNegf_def, Ideal.negf_def, Ideal.hostUnary_log_def, Ideal.ofBits_def, zero_sub]

/-- The row's maximum from -∞, over the 1024 codes. -/
theorem v32_apply (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (R : Fin 65536) :
    val_main_v32 (F := Ideal) x0 x1 x2 x3 (ix1 R)
      = (Finset.univ : Finset (Fin 1024)).fold max ninf (fun c => val_main_v31 (F := Ideal) x0 x1 x2 x3 (ix2 R c)) := by
  unfold val_main_v32
  generalize val_main_v31 (F := Ideal) x0 x1 x2 x3 = Z
  have h : S65536x1024.Reduces [1] S65536 := by decide
  refine (Host.reduce_eq_fold_single (FloatOps.maximumf (F := Ideal) (φ := .f32)) Z _ _ h _ (ix1 R)).trans ?_
  have hf : (Z ∘ h.lift (ix1 R)) = fun c : Fin 1024 => Z (ix2 R c) := funext fun k => congrArg Z (lift_ix1 h R k)
  rw [hf]
  rfl

/-- The shifted exponential of row `R`'s entry `c`: the row's maximum, met with -∞, is broadcast along the row. -/
theorem v38_row (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (R : Fin 65536) (c : Fin 1024) :
    val_main_v38 (F := Ideal) x0 x1 x2 x3 (ix2 R c) = expd (fun c => val_main_v31 (F := Ideal) x0 x1 x2 x3 (ix2 R c)) c := by
  have e : idx_main_v35 (idx_main_v36 (ix2 R c)) = ix1 R := funext fun a => by match a with | ⟨0, _⟩ => rfl
  rw [val_main_v38_apply, val_main_v37_apply, val_main_v36_apply, val_main_v35_apply, e, val_main_v34_apply, val_main_v33_apply,
    val_main_cst_8_apply, v32_apply]
  unfold expd rowMax
  simp only [Ideal.hostUnary_exp_def, Ideal.subf_def, Ideal.maximumf_def, Ideal.ofBits_def]

/-- The sum of row `R`'s shifted exponentials, from the initial value 0. -/
theorem v39_row (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (R : Fin 65536) :
    val_main_v39 (F := Ideal) x0 x1 x2 x3 (ix1 R)
      = ∑ c' : Fin 1024, expd (fun c => val_main_v31 (F := Ideal) x0 x1 x2 x3 (ix2 R c)) c' := by
  rw [val_main_v39_apply, val_main_cst_9_apply, Ideal.ofBits_def, Ideal.ofBits_zero_f32, zero_add]
  refine Finset.sum_congr rfl fun k _ => ?_
  have e : idx_main_v39 (ix1 R) k = ix2 R k := funext fun a => by match a with | ⟨0, _⟩ => rfl | ⟨1, _⟩ => rfl
  rw [e, v38_row]

/-- The softmax weight of row `R` on code `c`: the row's sum is broadcast along the row. -/
theorem v42_row (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (R : Fin 65536) (c : Fin 1024) :
    val_main_v42 (F := Ideal) x0 x1 x2 x3 (ix2 R c) = enc (fun c => val_main_v31 (F := Ideal) x0 x1 x2 x3 (ix2 R c)) c := by
  have e : idx_main_v40 (idx_main_v41 (ix2 R c)) = ix1 R := funext fun a => by match a with | ⟨0, _⟩ => rfl
  rw [val_main_v42_apply, val_main_v41_apply, val_main_v40_apply, e, v39_row, v38_row]
  unfold enc
  simp only [Ideal.hostDivf_def]

/-- The reference's quantized rows, before the reshape to [32, 2048, 64]. -/
theorem quant_eq (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) :
    val_main_v43 (F := Ideal) x0 x1 x2 x3 = quantArr (val_main_v3 (F := Ideal) x0) x1 (val_main_v2 (F := Ideal) x2 ix0) x3 := by
  funext i
  obtain ⟨R, k, rfl⟩ : ∃ (R : Fin 65536) (k : Fin 64), i = ix2 R k := ⟨i 0, i 1, eq_ix2 i⟩
  rw [quantArr_apply, val_main_v43_apply]
  unfold quant
  refine Finset.sum_congr rfl fun c _ => ?_
  have el : lidx_main_v43 (ix2 R k) c = ix2 R c := funext fun a => by match a with | ⟨0, _⟩ => rfl | ⟨1, _⟩ => rfl
  have er : ridx_main_v43 (ix2 R k) c = ix2 c k := funext fun a => by match a with | ⟨0, _⟩ => rfl | ⟨1, _⟩ => rfl
  have hz : (fun c => val_main_v31 (F := Ideal) x0 x1 x2 x3 (ix2 R c))
      = score (rowOf (val_main_v3 (F := Ideal) x0) R) (fun c => rowOf x1 c) (val_main_v2 (F := Ideal) x2 ix0) (rowOf x3 R) :=
    funext fun c => score_eq x0 x1 x2 x3 R c
  rw [el, er, v42_row, hz]

end Cert.Quantizer.ReferenceQuant

end
-- ==== Proof.lean ====
/-
  The certificate of a Gaussian vector quantizer kernel against its jnp reference, over the extended reals.

  Both programs flatten the encoder output `ze` to 65536 rows of 64 coordinates and compute, for every row `x` and
  every one of the 1024 codes `B c`, the logit `−(‖x‖² + ‖B c‖² − 2·⟨x, B c⟩)·p` with the precision
  `p = ½ / max (exp log_param_q) 1e-10`; they add Gumbel noise `−log (−log (u + ε) + ε)`, divide by the temperature ½,
  take the softmax over the codes and multiply the weights into the codebook. The results are the soft-assigned codes
  reshaped to [32, 2048, 64], the precision, and the logits reshaped to [32, 2048, 1024].

  The kernel does this on blocks of 512 rows, with its two products on the matrix unit through bf16 operands, its
  sums and its row maximum as lane reductions, and `0 − x` for a negation; the reference does it on all rows with the
  host's `dot_general`, `reduce` and `negate`. At the extended reals a change of float format is the identity, the
  matrix unit's product into a zero accumulator and the host's product are the same sum, a lane reduction and the
  host's reduction are the same sum or maximum, and `0 − x = −x`: so both compute Spec.lean's `logitsArr` and
  `quantArr` of the same arrays (KernelArrays.lean for the kernel, ReferenceLogits.lean and ReferenceQuant.lean for the
  reference), with the same literals on both sides and no law that needs finiteness: the precondition is never opened.
  The three frames are the generated ones (the reference's is its generated run with the results dropped), and the
  ideal pass rewrote nothing, so `preserves` is `True`.
-/
import proofs.«179091_j41953240547407_1_alg».proof.Defs
import proofs.«179091_j41953240547407_1_alg».proof.Proof.Gen.Kernel
import proofs.«179091_j41953240547407_1_alg».proof.Proof.Gen.Kernel.Skeleton
import proofs.«179091_j41953240547407_1_alg».proof.Proof.Gen.Kernel.Launch
import proofs.«179091_j41953240547407_1_alg».proof.Proof.Gen.Kernel.Points
import proofs.«179091_j41953240547407_1_alg».proof.Proof.Gen.Kernel.Frame
import proofs.«179091_j41953240547407_1_alg».proof.Proof.Gen.KernelIdeal
import proofs.«179091_j41953240547407_1_alg».proof.Proof.Gen.KernelIdeal.Skeleton
import proofs.«179091_j41953240547407_1_alg».proof.Proof.Gen.KernelIdeal.Launch
import proofs.«179091_j41953240547407_1_alg».proof.Proof.Gen.KernelIdeal.Points
import proofs.«179091_j41953240547407_1_alg».proof.Proof.Gen.KernelIdeal.Frame
import proofs.«179091_j41953240547407_1_alg».proof.Proof.Gen.ReferenceIdeal
import proofs.«179091_j41953240547407_1_alg».proof.Proof.Gen.Pre_finite_inputs
import proofs.«179091_j41953240547407_1_alg».proof.Proof.Gen.ReferenceIdeal.Run
import proofs.«179091_j41953240547407_1_alg».proof.Proof.Gen.ReferenceIdeal.Read
import proofs.«179091_j41953240547407_1_alg».proof.Proof.KernelArrays
import proofs.«179091_j41953240547407_1_alg».proof.Proof.ReferenceQuant
import Idealize.ShloMosaic.Adequacy
import Idealize.ShloMosaic.Init

noncomputable section

open Idealize.ShloMosaic Idealize.ShloMosaic.TcCoe Idealize.SL.Sem Idealize.ShloMosaic.ValueIdx

/-! ## The reference's results are the kernel's functions of the arguments -/

namespace Cert.Quantizer.ReferenceResults

open Cert.Quantizer Cert.Quantizer.KernelArrays

/-- The reference's first result: the reshape of the soft-assigned codes of all rows. -/
theorem quant_result (x0 : Cert.ReferenceIdeal.S32x2048x64.Idx → EReal) (x1 : Cert.ReferenceIdeal.S1024x64.Idx → EReal)
    (x2 : Cert.ReferenceIdeal.S_.Idx → EReal) (x3 : Cert.ReferenceIdeal.S65536x1024.Idx → EReal) :
    Cert.ReferenceIdeal.Read.val_main_v44 (F := Ideal) x0 x1 x2 x3
      = shapeCast Cert.KernelIdeal.S32x2048x64 (quantArr (shapeCast Cert.KernelIdeal.S65536x64 x0 Cert.KernelIdeal.Facts₀.shapeCasts_S32x2048x64_S65536x64)
          x1 (precision x2 ix0) x3) Cert.KernelIdeal.Facts₀.shapeCasts_S65536x64_S32x2048x64 := by
  unfold Cert.ReferenceIdeal.Read.val_main_v44
  rw [Cert.Quantizer.ReferenceQuant.quant_eq]
  rfl

/-- The reference's third result: the reshape of the logits of all rows. -/
theorem logits_result (x0 : Cert.ReferenceIdeal.S32x2048x64.Idx → EReal) (x1 : Cert.ReferenceIdeal.S1024x64.Idx → EReal)
    (x2 : Cert.ReferenceIdeal.S_.Idx → EReal) :
    Cert.ReferenceIdeal.Read.val_main_v45 (F := Ideal) x0 x1 x2
      = shapeCast Cert.KernelIdeal.S32x2048x1024 (logitsArr (shapeCast Cert.KernelIdeal.S65536x64 x0 Cert.KernelIdeal.Facts₀.shapeCasts_S32x2048x64_S65536x64)
          x1 (precision x2 ix0)) Cert.KernelIdeal.Facts₀.shapeCasts_S65536x1024_S32x2048x1024 := by
  unfold Cert.ReferenceIdeal.Read.val_main_v45
  rw [Cert.Quantizer.ReferenceLogits.logits_eq]
  rfl

end Cert.Quantizer.ReferenceResults

/-! ## The claims -/

namespace Cert.Proof

open Cert.Quantizer

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories that agree on the arguments both programs end with the soft-assigned codes, the precision and the
    logits of the same arrays. -/
theorem algebraic : Cert.algebraic_KernelIdeal_ReferenceIdeal := by
  intro m ρ m' ρ' _ hagree
  refine ⟨_, _, _, Cert.Quantizer.KernelArrays.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v44_eq, (hagree c).1, (hagree c).2.1, (hagree c).2.2.1, (hagree c).2.2.2]
    exact Cert.Quantizer.ReferenceResults.quant_result _ _ _ _
  · rw [(hagree c).2.2.1]
    rfl
  · rw [(hagree c).1, (hagree c).2.1, (hagree c).2.2.1]
    exact (Cert.ReferenceIdeal.Read.val_main_v45_eq _ _ _).trans (Cert.Quantizer.ReferenceResults.logits_result _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
